-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S_ : Shape := ⟨0, ![]⟩

class Facts : Prop where
  bcast_S_S512x16384 : S_.BroadcastsInDim S512x16384 (![] : Fin 0 → Fin S512x16384.rank)
  reducesTo_S512x16384_S_d0_1 : S512x16384.ReducesTo [0, 1] S_
  h_S_ : 0 < S_.numel
  bcast_S_S512x16384x2 : S_.BroadcastsInDim S512x16384x2 (![] : Fin 0 → Fin S512x16384x2.rank)
  reducesTo_S512x16384x2_S_d0_1_2 : S512x16384x2.ReducesTo [0, 1, 2] S_
  bcast_S_S16384x2 : S_.BroadcastsInDim S16384x2 (![] : Fin 0 → Fin S16384x2.rank)
  reducesTo_S16384x2_S_d0_1 : S16384x2.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S512x16384 .f32) (main_arg1 : FVec F S512x16384x2 .f32) (main_arg2 : FVec F S16384x2 .f32) (main_arg3 : FVec F S16384 .f32) (main_arg4 : FVec F S16384 .f32) : IVec S_ 1 :=
  let main_v0 : FVec F S512x16384 .f32 := Host.absf main_arg0
  let main_cst : FVec F S_ .f32 := constant S_ .f32 0x7F800000#32
  let main_v1 : FVec F S512x16384 .f32 := broadcastInDim S512x16384 ![] bcast_S_S512x16384 main_cst
  let main_v2 : IVec S512x16384 1 := cmpf .olt main_v0 main_v1
  let main_c : IVec S_ 1 := constantI S_ 1 1#1
  let main_v3 : IVec S_ 1 := (fun x v => Host.reduce IntOp.andi x v reducesTo_S512x16384_S_d0_1 h_S_) main_v2 main_c
  let main_v4 : FVec F S512x16384x2 .f32 := Host.absf main_arg1
  let main_cst_0 : FVec F S_ .f32 := constant S_ .f32 0x7F800000#32
  let main_v5 : FVec F S512x16384x2 .f32 := broadcastInDim S512x16384x2 ![] bcast_S_S512x16384x2 main_cst_0
  let main_v6 : IVec S512x16384x2 1 := cmpf .olt main_v4 main_v5
  let main_c_1 : IVec S_ 1 := constantI S_ 1 1#1
  let main_v7 : IVec S_ 1 := (fun x v => Host.reduce IntOp.andi x v reducesTo_S512x16384x2_S_d0_1_2 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S32x16384x2 : Shape := ⟨3, ![32, 16384, 2]⟩
abbrev S32x16384 : Shape := ⟨2, ![32, 16384]⟩
abbrev S1x16384x2 : Shape := ⟨3, ![1, 16384, 2]⟩
abbrev S1x16384x1 : Shape := ⟨3, ![1, 16384, 1]⟩
abbrev S32x16384x1 : Shape := ⟨3, ![32, 16384, 1]⟩
abbrev S1x16384 : Shape := ⟨2, ![1, 16384]⟩
abbrev S_ : Shape := ⟨0, ![]⟩
abbrev S512x16384x1 : Shape := ⟨3, ![512, 16384, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 55
  | .vmem => 8
  | .smem => 0
  | _ => 0

abbrev bufTy : (tb : Table) → Fin (tcTables nBuf tb) → BufTy
  | .hbm, ⟨0, _⟩ => ⟨S512x16384, .f32⟩
  | .hbm, ⟨1, _⟩ => ⟨S512x16384x2, .f32⟩
  | .hbm, ⟨2, _⟩ => ⟨S16384x2, .f32⟩
  | .hbm, ⟨3, _⟩ => ⟨S16384, .f32⟩
  | .hbm, ⟨4, _⟩ => ⟨S16384, .f32⟩
  | .hbm, ⟨5, _⟩ => ⟨S512x16384, .i32⟩
  | .hbm, ⟨6, _⟩ => ⟨S512x16384, .i32⟩
  | .hbm, ⟨7, _⟩ => ⟨S1x16384, .f32⟩
  | .hbm, ⟨8, _⟩ => ⟨S512x16384, .f32⟩
  | .hbm, ⟨9, _⟩ => ⟨S_, .i32⟩
  | .hbm, ⟨10, _⟩ => ⟨S512x16384, .i32⟩
  | .hbm, ⟨11, _⟩ => ⟨S512x16384, .i1⟩
  | .hbm, ⟨12, _⟩ => ⟨S_, .i32⟩
  | .hbm, ⟨13, _⟩ => ⟨S512x16384, .i32⟩
  | .hbm, ⟨14, _⟩ => ⟨S512x16384, .i32⟩
  | .hbm, ⟨15, _⟩ => ⟨S512x16384, .i32⟩
  | .hbm, ⟨16, _⟩ => ⟨S512x16384x1, .i32⟩
  | .hbm, ⟨17, _⟩ => ⟨S1, .i32⟩
  | .hbm, ⟨18, _⟩ => ⟨S_, .i32⟩
  | .hbm, ⟨19, _⟩ => ⟨S512x16384x1, .i32⟩
  | .hbm, ⟨20, _⟩ => ⟨S512x16384x1, .i1⟩
  | .hbm, ⟨21, _⟩ => ⟨S1x1x1, .i32⟩
  | .hbm, ⟨22, _⟩ => ⟨S512x16384x1, .i32⟩
  | .hbm, ⟨23, _⟩ => ⟨S512x16384x1, .i1⟩
  | .hbm, ⟨24, _⟩ => ⟨S512x16384x1, .i1⟩
  | .hbm, ⟨25, _⟩ => ⟨S_, .i1⟩
  | .hbm, ⟨26, _⟩ => ⟨S512x16384, .i1⟩
  | .hbm, ⟨27, _⟩ => ⟨S512x16384, .f32⟩
  | .hbm, ⟨28, _⟩ => ⟨S_, .f32⟩
  | .hbm, ⟨29, _⟩ => ⟨S512x16384, .f32⟩
  | .hbm, ⟨30, _⟩ => ⟨S512x16384, .f32⟩
  | .hbm, ⟨31, _⟩ => ⟨S512x16384, .f32⟩
  | .hbm, ⟨32, _⟩ => ⟨S512, .i32⟩
  | .hbm, ⟨33, _⟩ => ⟨S512x1, .i32⟩
  | .hbm, ⟨34, _⟩ => ⟨S_, .f32⟩
  | .hbm, ⟨35, _⟩ => ⟨S512x16384, .f32⟩
  | .hbm, ⟨36, _⟩ => ⟨S_, .i32⟩
  | .hbm, ⟨37, _⟩ => ⟨S512x1, .i32⟩
  | .hbm, ⟨38, _⟩ => ⟨S512x1, .i1⟩
  | .hbm, ⟨39, _⟩ => ⟨S_, .i32⟩
  | .hbm, ⟨40, _⟩ => ⟨S512x1, .i32⟩
  | .hbm, ⟨41, _⟩ => ⟨S512x1, .i32⟩
  | .hbm, ⟨42, _⟩ => ⟨S512x1, .i32⟩
  | .hbm, ⟨43, _⟩ => ⟨S_, .i32⟩
  | .hbm, ⟨44, _⟩ => ⟨S512x16384, .i32⟩
  | .hbm, ⟨45, _⟩ => ⟨S512x16384, .i1⟩
  | .hbm, ⟨46, _⟩ => ⟨S_, .i32⟩
  | .hbm, ⟨47, _⟩ => ⟨S512x16384, .i32⟩
  | .hbm, ⟨48, _⟩ => ⟨S512x16384, .i32⟩
  | .hbm, ⟨49, _⟩ => ⟨S512x16384, .i32⟩
  | .hbm, ⟨50, _⟩ => ⟨S512x16384, .i32⟩
  | .hbm, ⟨51, _⟩ => ⟨S512x16384x1, .i32⟩
  | .hbm, ⟨52, _⟩ => ⟨S512x16384x1, .i32⟩
  | .hbm, ⟨53, _⟩ => ⟨S512x16384x2, .i32⟩
  | .hbm, ⟨54, _⟩ => ⟨S512x16384, .f32⟩
  | .local _ .vmem, ⟨0, _⟩ => ⟨S32x16384x2, .f32⟩
  | .local _ .vmem, ⟨1, _⟩ => ⟨S32x16384x2, .f32⟩
  | .local _ .vmem, ⟨2, _⟩ => ⟨S16384x2, .f32⟩
  | .local _ .vmem, ⟨3, _⟩ => ⟨S16384, .f32⟩
  | .local _ .vmem, ⟨4, _⟩ => ⟨S32x16384, .i32⟩
  | .local _ .vmem, ⟨5, _⟩ => ⟨S32x16384, .i32⟩
  | .local _ .vmem, ⟨6, _⟩ => ⟨S32x16384, .i32⟩
  | .local _ .vmem, ⟨7, _⟩ => ⟨S32x16384, .i32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c_1 : Ref sig .tc := ⟨.hbm, 43, rfl⟩
abbrev main_v13 : Ref sig .tc := ⟨.hbm, 44, rfl⟩
abbrev main_v14 : Ref sig .tc := ⟨.hbm, 45, rfl⟩
abbrev main_c_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16384x2_S16384x2_0_0 : ∀ a, (![0, 0] : Fin 2 → Nat) a + S16384x2.size a ≤ S16384x2.size a
  h_S16384x2 : 0 < S16384x2.numel
  inb_S16384_S16384_0 : ∀ a, (![0] : Fin 1 → Nat) a + S16384.size a ≤ S16384.size a
  h_S16384 : 0 < S16384.numel
  inb_S32x16384x2_S32x16384x2_0_0_0 : ∀ a, (![0, 0, 0] : Fin 3 → Nat) a + S32x16384x2.size a ≤ S32x16384x2.size a
  h_S32x16384x2 : 0 < S32x16384x2.numel
  shapeCasts_S16384x2_S1x16384x2 : S16384x2.ShapeCasts S1x16384x2
  shapeCasts_S16384_S1x16384x1 : S16384.ShapeCasts S1x16384x1
  broadcasts_S1x16384x1_S32x16384x2 : S1x16384x1.Broadcasts S32x16384x2
  broadcasts_S1x16384x2_S32x16384x2 : S1x16384x2.Broadcasts S32x16384x2
  slices_S32x16384x2_o0_0_0_S32x16384x1 : S32x16384x2.Slices ![0, 0, 0] S32x16384x1
  shapeCasts_S32x16384x1_S32x16384 : S32x16384x1.ShapeCasts S32x16384
  inb_S32x16384_S32x16384_0_0 : ∀ a, (![0, 0] : Fin 2 → Nat) a + S32x16384.size a ≤ S32x16384.size a
  h_S32x16384 : 0 < S32x16384.numel
  slices_S32x16384x2_o0_0_1_S32x16384x1 : S32x16384x2.Slices ![0, 0, 1] S32x16384x1
  bcast_S16384_S1x16384_1 : S16384.BroadcastsInDim S1x16384 (![1] : Fin 1 → Fin S1x16384.rank)
  bcast_S1x16384_S512x16384_0_1 : S1x16384.BroadcastsInDim S512x16384 (![0, 1] : Fin 2 → Fin S512x16384.rank)
  bcast_S_S512x16384 : S_.BroadcastsInDim S512x16384 (![] : Fin 0 → Fin S512x16384.rank)
  shapeCasts_S512x16384_S512x16384x1 : S512x16384.ShapeCasts S512x16384x1
  bcast_S_S512x16384x1 : S_.BroadcastsInDim S512x16384x1 (![] : Fin 0 → Fin S512x16384x1.rank)
  bcast_S1_S1x1x1_2 : S1.BroadcastsInDim S1x1x1 (![2] : Fin 1 → Fin S1x1x1.rank)
  bcast_S1x1x1_S512x16384x1_0_1_2 : S1x1x1.BroadcastsInDim S512x16384x1 (![0, 1, 2] : Fin 3 → Fin S512x16384x1.rank)
  reducesTo_S512x16384x1_S512x16384_d2 : S512x16384x1.ReducesTo [2] S512x16384
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S512x16384_S512x16384x1_0_1 : S512x16384.BroadcastsInDim S512x16384x1 (![0, 1] : Fin 2 → Fin S512x16384x1.rank)
  concatenates_S512x16384x1_S512x16384x1_S512x16384x2_d2 : Shape.Concatenates [S512x16384x1, S512x16384x1] S512x16384x2 2
  gather_S512x16384_S512x16384x1_S512x16384_n_1_0_0_1_2_11_wf : GatherDims.WF S512x16384 S512x16384x1 S512x16384 [] [1] [0] [1] [0] 2 ![1, 1]
  scatter_S512x16384_S512x16384x2_S512x16384_n_01_01_2_wf : ScatterDims.WF S512x16384 S512x16384x2 S512x16384 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384x2.size a ≤ S512x16384x2.size a
  hwx0_0 : ∀ i : grid0.Coords, EltTy.bits .f32 = 32 ∨ (Rect.block (s := S512x16384x2) S32x16384x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x2.size a ≤ S16384x2.size a
  hwx0_1 : ∀ i : grid0.Coords, EltTy.bits .f32 = 32 ∨ (Rect.block (s := S16384x2) S16384x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S16384.size a
  hwx0_2 : ∀ i : grid0.Coords, EltTy.bits .f32 = 32 ∨ (Rect.block (s := S16384) S16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S512x16384.size a
  hwx0_3 : ∀ i : grid0.Coords, EltTy.bits .i32 = 32 ∨ (Rect.block (s := S512x16384) S32x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16384.size a ≤ S512x16384.size a
  hwx0_4 : ∀ i : grid0.Coords, EltTy.bits .i32 = 32 ∨ (Rect.block (s := S512x16384) S32x16384.size (cc0_transform_4 i) (hinb0_4 i)).WholeWords (EltTy.packing .i32)

variable [Facts₀]

def gather_S512x16384_S512x16384x1_S512x16384_n_1_0_0_1_2_11 : GatherDims S512x16384 S512x16384x1 S512x16384 where
  offsetDims := []
  collapsedSliceDims := [1]
  operandBatchingDims := [0]
  startIndicesBatchingDims := [0]
  startIndexMap := [1]
  indexVectorDim := 2
  sliceSizes := ![1, 1]
  wf := gather_S512x16384_S512x16384x1_S512x16384_n_1_0_0_1_2_11_wf
def scatter_S512x16384_S512x16384x2_S512x16384_n_01_01_2 : ScatterDims S512x16384 S512x16384x2 S512x16384 where
  updateWindowDims := []
  insertedWindowDims := [0, 1]
  scatterDimsToOperandDims := [0, 1]
  indexVectorDim := 2
  wf := scatter_S512x16384_S512x16384x2_S512x16384_n_01_01_2_wf

abbrev win0_0 : Pipeline.Window sig grid0 :=
  Pipeline.Window.ofSpec (Memref.whole main_arg1) S32x16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16384x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S_ : Shape := ⟨0, ![]⟩
abbrev S1x16384x2 : Shape := ⟨3, ![1, 16384, 2]⟩
abbrev S1x16384x1 : Shape := ⟨3, ![1, 16384, 1]⟩
abbrev S512x16384x1 : Shape := ⟨3, ![512, 16384, 1]⟩
abbrev S1x16384 : Shape := ⟨2, ![1, 16384]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 109
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384x2, .f32⟩
  | .hbm, ⟨2, _⟩ => ⟨S16384x2, .f32⟩
  | .hbm, ⟨3, _⟩ => ⟨S16384, .f32⟩
  | .hbm, ⟨4, _⟩ => ⟨S16384, .f32⟩
  | .hbm, ⟨5, _⟩ => ⟨S16384x2, .f32⟩
  | .hbm, ⟨6, _⟩ => ⟨S16384x2, .f32⟩
  | .hbm, ⟨7, _⟩ => ⟨S_, .f32⟩
  | .hbm, ⟨8, _⟩ => ⟨S16384x2, .f32⟩
  | .hbm, ⟨9, _⟩ => ⟨S16384x2, .f32⟩
  | .hbm, ⟨10, _⟩ => ⟨S_, .f32⟩
  | .hbm, ⟨11, _⟩ => ⟨S16384x2, .f32⟩
  | .hbm, ⟨12, _⟩ => ⟨S16384x2, .f32⟩
  | .hbm, ⟨13, _⟩ => ⟨S1x16384x2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x16384x2, .f32⟩
  | .hbm, ⟨18, _⟩ => ⟨S1x16384x2, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384, .i1⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S1x16384x1, .f32⟩
  | .hbm, ⟨40, _⟩ => ⟨S_, .f32⟩
  | .hbm, ⟨41, _⟩ => ⟨S1x16384x1, .f32⟩
  | .hbm, ⟨42, _⟩ => ⟨S1x16384x1, .f32⟩
  | .hbm, ⟨43, _⟩ => ⟨S512x16384x2, .f32⟩
  | .hbm, ⟨44, _⟩ => ⟨S512x16384x2, .f32⟩
  | .hbm, ⟨45, _⟩ => ⟨S512x16384x2, .f32⟩
  | .hbm, ⟨46, _⟩ => ⟨S512x16384x2, .f32⟩
  | .hbm, ⟨47, _⟩ => ⟨S512x16384x2, .f32⟩
  | .hbm, ⟨48, _⟩ => ⟨S512x16384x2, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S512x16384x2, .i32⟩
  | .hbm, ⟨53, _⟩ => ⟨S512x16384x2, .i32⟩
  | .hbm, ⟨54, _⟩ => ⟨S_, .i32⟩
  | .hbm, ⟨55, _⟩ => ⟨S512x16384x2, .i32⟩
  | .hbm, ⟨56, _⟩ => ⟨S512x16384x2, .i32⟩
  | .hbm, ⟨57, _⟩ => ⟨S512x16384x1, .i32⟩
  | .hbm, ⟨58, _⟩ => ⟨S512x16384, .i32⟩
  | .hbm, ⟨59, _⟩ => ⟨S512x16384x1, .i32⟩
  | .hbm, ⟨60, _⟩ => ⟨S512x16384, .i32⟩
  | .hbm, ⟨61, _⟩ => ⟨S1x16384, .f32⟩
  | .hbm, ⟨62, _⟩ => ⟨S512x16384, .f32⟩
  | .hbm, ⟨63, _⟩ => ⟨S_, .i32⟩
  | .hbm, ⟨64, _⟩ => ⟨S512x16384, .i32⟩
  | .hbm, ⟨65, _⟩ => ⟨S512x16384, .i1⟩
  | .hbm, ⟨66, _⟩ => ⟨S_, .i32⟩
  | .hbm, ⟨67, _⟩ => ⟨S512x16384, .i32⟩
  | .hbm, ⟨68, _⟩ => ⟨S512x16384, .i32⟩
  | .hbm, ⟨69, _⟩ => ⟨S512x16384, .i32⟩
  | .hbm, ⟨70, _⟩ => ⟨S512x16384x1, .i32⟩
  | .hbm, ⟨71, _⟩ => ⟨S1, .i32⟩
  | .hbm, ⟨72, _⟩ => ⟨S_, .i32⟩
  | .hbm, ⟨73, _⟩ => ⟨S512x16384x1, .i32⟩
  | .hbm, ⟨74, _⟩ => ⟨S512x16384x1, .i1⟩
  | .hbm, ⟨75, _⟩ => ⟨S1x1x1, .i32⟩
  | .hbm, ⟨76, _⟩ => ⟨S512x16384x1, .i32⟩
  | .hbm, ⟨77, _⟩ => ⟨S512x16384x1, .i1⟩
  | .hbm, ⟨78, _⟩ => ⟨S512x16384x1, .i1⟩
  | .hbm, ⟨79, _⟩ => ⟨S_, .i1⟩
  | .hbm, ⟨80, _⟩ => ⟨S512x16384, .i1⟩
  | .hbm, ⟨81, _⟩ => ⟨S512x16384, .f32⟩
  | .hbm, ⟨82, _⟩ => ⟨S_, .f32⟩
  | .hbm, ⟨83, _⟩ => ⟨S512x16384, .f32⟩
  | .hbm, ⟨84, _⟩ => ⟨S512x16384, .f32⟩
  | .hbm, ⟨85, _⟩ => ⟨S512x16384, .f32⟩
  | .hbm, ⟨86, _⟩ => ⟨S_, .f32⟩
  | .hbm, ⟨87, _⟩ => ⟨S512x16384, .f32⟩
  | .hbm, ⟨88, _⟩ => ⟨S512, .i32⟩
  | .hbm, ⟨89, _⟩ => ⟨S512x1, .i32⟩
  | .hbm, ⟨90, _⟩ => ⟨S_, .i32⟩
  | .hbm, ⟨91, _⟩ => ⟨S512x1, .i32⟩
  | .hbm, ⟨92, _⟩ => ⟨S512x1, .i1⟩
  | .hbm, ⟨93, _⟩ => ⟨S_, .i32⟩
  | .hbm, ⟨94, _⟩ => ⟨S512x1, .i32⟩
  | .hbm, ⟨95, _⟩ => ⟨S512x1, .i32⟩
  | .hbm, ⟨96, _⟩ => ⟨S512x1, .i32⟩
  | .hbm, ⟨97, _⟩ => ⟨S_, .i32⟩
  | .hbm, ⟨98, _⟩ => ⟨S512x16384, .i32⟩
  | .hbm, ⟨99, _⟩ => ⟨S512x16384, .i1⟩
  | .hbm, ⟨100, _⟩ => ⟨S_, .i32⟩
  | .hbm, ⟨101, _⟩ => ⟨S512x16384, .i32⟩
  | .hbm, ⟨102, _⟩ => ⟨S512x16384, .i32⟩
  | .hbm, ⟨103, _⟩ => ⟨S512x16384, .i32⟩
  | .hbm, ⟨104, _⟩ => ⟨S512x16384, .i32⟩
  | .hbm, ⟨105, _⟩ => ⟨S512x16384x1, .i32⟩
  | .hbm, ⟨106, _⟩ => ⟨S512x16384x1, .i32⟩
  | .hbm, ⟨107, _⟩ => ⟨S512x16384x2, .i32⟩
  | .hbm, ⟨108, _⟩ => ⟨S512x16384, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v31 : Ref sig .tc := ⟨.hbm, 84, rfl⟩
abbrev main_v32 : Ref sig .tc := ⟨.hbm, 85, rfl⟩
abbrev main_cst_7 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_8 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_c_10 : Ref sig .tc := ⟨.hbm, 97, rfl⟩
abbrev main_v41 : Ref sig .tc := ⟨.hbm, 98, rfl⟩
abbrev main_v42 : Ref sig .tc := ⟨.hbm, 99, rfl⟩
abbrev main_c_11 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩

abbrev nD : Nat := 1
abbrev τ : Topo := Topo.v7x

variable {F : FTy → Type} [FloatOps F]

class Facts₀ : Prop where
  bcast_S_S16384x2 : S_.BroadcastsInDim S16384x2 (![] : Fin 0 → Fin S16384x2.rank)
  bcast_S16384x2_S1x16384x2_1_2 : S16384x2.BroadcastsInDim S1x16384x2 (![1, 2] : Fin 2 → Fin S1x16384x2.rank)
  bcast_S_S1x16384x2 : S_.BroadcastsInDim S1x16384x2 (![] : Fin 0 → Fin S1x16384x2.rank)
  bcast_S_S16384 : S_.BroadcastsInDim S16384 (![] : Fin 0 → Fin S16384.rank)
  bcast_S16384_S1x16384x1_1 : S16384.BroadcastsInDim S1x16384x1 (![1] : Fin 1 → Fin S1x16384x1.rank)
  bcast_S_S1x16384x1 : S_.BroadcastsInDim S1x16384x1 (![] : Fin 0 → Fin S1x16384x1.rank)
  bcast_S1x16384x1_S512x16384x2_0_1_2 : S1x16384x1.BroadcastsInDim S512x16384x2 (![0, 1, 2] : Fin 3 → Fin S512x16384x2.rank)
  bcast_S1x16384x2_S512x16384x2_0_1_2 : S1x16384x2.BroadcastsInDim S512x16384x2 (![0, 1, 2] : Fin 3 → Fin S512x16384x2.rank)
  bcast_S_S512x16384x2 : S_.BroadcastsInDim S512x16384x2 (![] : Fin 0 → Fin S512x16384x2.rank)
  slices_S512x16384x2_S512x16384x1_0_0_0 : S512x16384x2.Slices ![0, 0, 0] S512x16384x1
  shapeCasts_S512x16384x1_S512x16384 : S512x16384x1.ShapeCasts S512x16384
  slices_S512x16384x2_S512x16384x1_0_0_1 : S512x16384x2.Slices ![0, 0, 1] S512x16384x1
  bcast_S16384_S1x16384_1 : S16384.BroadcastsInDim S1x16384 (![1] : Fin 1 → Fin S1x16384.rank)
  bcast_S1x16384_S512x16384_0_1 : S1x16384.BroadcastsInDim S512x16384 (![0, 1] : Fin 2 → Fin S512x16384.rank)
  bcast_S_S512x16384 : S_.BroadcastsInDim S512x16384 (![] : Fin 0 → Fin S512x16384.rank)
  shapeCasts_S512x16384_S512x16384x1 : S512x16384.ShapeCasts S512x16384x1
  bcast_S_S512x16384x1 : S_.BroadcastsInDim S512x16384x1 (![] : Fin 0 → Fin S512x16384x1.rank)
  bcast_S1_S1x1x1_2 : S1.BroadcastsInDim S1x1x1 (![2] : Fin 1 → Fin S1x1x1.rank)
  bcast_S1x1x1_S512x16384x1_0_1_2 : S1x1x1.BroadcastsInDim S512x16384x1 (![0, 1, 2] : Fin 3 → Fin S512x16384x1.rank)
  reducesTo_S512x16384x1_S512x16384_d2 : S512x16384x1.ReducesTo [2] S512x16384
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S512x16384_S512x16384x1_0_1 : S512x16384.BroadcastsInDim S512x16384x1 (![0, 1] : Fin 2 → Fin S512x16384x1.rank)
  concatenates_S512x16384x1_S512x16384x1_S512x16384x2_d2 : Shape.Concatenates [S512x16384x1, S512x16384x1] S512x16384x2 2
  gather_S512x16384_S512x16384x1_S512x16384_n_1_0_0_1_2_11_wf : GatherDims.WF S512x16384 S512x16384x1 S512x16384 [] [1] [0] [1] [0] 2 ![1, 1]
  scatter_S512x16384_S512x16384x2_S512x16384_n_01_01_2_wf : ScatterDims.WF S512x16384 S512x16384x2 S512x16384 [] [0, 1] [0, 1] 2

variable [Facts₀]

def gather_S512x16384_S512x16384x1_S512x16384_n_1_0_0_1_2_11 : GatherDims S512x16384 S512x16384x1 S512x16384 where
  offsetDims := []
  collapsedSliceDims := [1]
  operandBatchingDims := [0]
  startIndicesBatchingDims := [0]
  startIndexMap := [1]
  indexVectorDim := 2
  sliceSizes := ![1, 1]
  wf := gather_S512x16384_S512x16384x1_S512x16384_n_1_0_0_1_2_11_wf
def scatter_S512x16384_S512x16384x2_S512x16384_n_01_01_2 : ScatterDims S512x16384 S512x16384x2 S512x16384 where
  updateWindowDims := []
  insertedWindowDims := [0, 1]
  scatterDimsToOperandDims := [0, 1]
  indexVectorDim := 2
  wf := scatter_S512x16384_S512x16384x2_S512x16384_n_01_01_2_wf

class Facts : Prop extends Facts₀ where

variable [Facts]
-- ==== Proof.Cell.lean ====
/-
  One cell of the index tables, as a function of three numbers.

  Both programs draw, for each batch row b, table slot t and coordinate k ∈ {0, 1}, the sample
      s = σ(pm) · 16383 + ((softplus(ps + 2) + ε) · 16384) · nz
  from pm = pmeans[t, k], ps = psigmas[t], nz = noise[b, t, k], round it to the nearest integer (ties to even),
  convert it to a 32-bit integer (out-of-range values clamped) and clip it into [0, 16383].

  The two programs spell the same sample differently:
    • the logistic σ is one operation in the kernel and the quotient 1 / (1 + e^(-pm)) on the host — the same
      extended real, by the definition of the logistic;
    • the scale 16383 is a literal in the kernel and the difference 16384 − 1 of two literals on the host;
    • softplus is max(u, 0) + log1p(e^(-|u − 0|)) on both sides, guarded by the test "u − 0 ≠ u − 0", ordered in the
      kernel and unordered on the host — one comparison on a linear order; the kernel writes the negation as 0 − |·|.
  This module states the two spellings and proves them equal on every extended real (no finiteness is used).
-/
import Idealize.ShloMosaic.PureOps.Ideal
import Idealize.ShloMosaic.Lib.ValueIdx

noncomputable section

namespace Cert.IndexCell

open Idealize.ShloMosaic

/-! ## The literal words as extended reals -/

/-- The word of `0.0` is zero. -/
theorem word_zero : Ideal.ofBits .f32 0x00000000#32 = 0 := by
  simp [Ideal.ofBits, Ideal.ieee]

/-- The word of `1.0` is one. -/
theorem word_one : Ideal.ofBits .f32 0x3F800000#32 = 1 := by
  simp [Ideal.ofBits, Ideal.ieee, -EReal.coe_mul]; norm_num

/-- The word of `16384.0` is the real 16384. -/
theorem word_16384 : Ideal.ofBits .f32 0x46800000#32 = ((16384 : ℝ) : EReal) := by
  simp [Ideal.ofBits, Ideal.ieee, -EReal.coe_mul]; norm_num

/-- The word of `16383.0` is the real 16383. -/
theorem word_16383 : Ideal.ofBits .f32 0x467FFC00#32 = ((16383 : ℝ) : EReal) := by
  simp [Ideal.ofBits, Ideal.ieee, -EReal.coe_mul]; norm_num

/-- The host's scale `16384 − 1` is the kernel's literal `16383`. -/
theorem span_minus_one :
    Ideal.ofBits .f32 0x46800000#32 - Ideal.ofBits .f32 0x3F800000#32 = Ideal.ofBits .f32 0x467FFC00#32 := by
  rw [word_16384, word_one, word_16383, ← EReal.coe_one, ← EReal.coe_sub]
  norm_num

/-! ## The kernel's spelling -/

/-- The scaled mean `σ(pm) · 16383`, the logistic as one operation. -/
def meanK (pm : Ideal .f32) : Ideal .f32 :=
  FloatOps.mulf (FloatOps.logistic pm) (FloatOps.ofBits .f32 0x467FFC00#32)

/-- The scaled spread `(softplus(ps + 2) + ε) · 16384`, softplus by its stable form with `0 − |·|`. -/
def spreadK (ps : Ideal .f32) : Ideal .f32 :=
  FloatOps.mulf
    (FloatOps.addf
      (Scalar.select
        (FloatOps.cmpf .one
          (FloatOps.subf (FloatOps.addf ps (FloatOps.ofBits .f32 0x40000000#32)) (FloatOps.ofBits .f32 0x00000000#32))
          (FloatOps.subf (FloatOps.addf ps (FloatOps.ofBits .f32 0x40000000#32)) (FloatOps.ofBits .f32 0x00000000#32)))
        (FloatOps.addf (FloatOps.addf ps (FloatOps.ofBits .f32 0x40000000#32)) (FloatOps.ofBits .f32 0x00000000#32))
        (FloatOps.addf
          (FloatOps.maximumf (FloatOps.addf ps (FloatOps.ofBits .f32 0x40000000#32)) (FloatOps.ofBits .f32 0x00000000#32))
          (FloatOps.log1p (FloatOps.exp (FloatOps.subf (FloatOps.ofBits .f32 0x00000000#32)
            (FloatOps.absf (FloatOps.subf (FloatOps.addf ps (FloatOps.ofBits .f32 0x40000000#32)) (FloatOps.ofBits .f32 0x00000000#32))))))))
      (FloatOps.ofBits .f32 0x358637BD#32))
    (FloatOps.ofBits .f32 0x46800000#32)

/-- The cell: the sample rounded to even, converted, clipped to `[0, 16383]`. -/
def cellK (pm ps nz : Ideal .f32) : BitVec 32 :=
  IntOp.minsi 16383#32 (IntOp.maxsi 0#32
    (FloatOps.fptosi 32 (FloatOps.roundeven (FloatOps.addf (meanK pm) (FloatOps.mulf (spreadK ps) nz)))))

/-! ## The host's spelling -/

/-- The scaled mean, the logistic as the quotient `1 / (1 + e^(-pm))`, the scale as `16384 − 1`. -/
def meanH (pm : Ideal .f32) : Ideal .f32 :=
  FloatOps.mulf
    (FloatOps.hostDivf (FloatOps.ofBits .f32 0x3F800000#32)
      (FloatOps.addf (FloatOps.ofBits .f32 0x3F800000#32) (FloatOps.hostUnary .exp (FloatOps.hostNegf pm))))
    (FloatOps.subf (FloatOps.ofBits .f32 0x46800000#32) (FloatOps.ofBits .f32 0x3F800000#32))

/-- The scaled spread, softplus with the host's negation and its unordered guard. -/
def spreadH (ps : Ideal .f32) : Ideal .f32 :=
  FloatOps.mulf
    (FloatOps.addf
      (Scalar.select
        (FloatOps.cmpf .une
          (FloatOps.subf (FloatOps.addf ps (FloatOps.ofBits .f32 0x40000000#32)) (FloatOps.ofBits .f32 0x00000000#32))
          (FloatOps.subf (FloatOps.addf ps (FloatOps.ofBits .f32 0x40000000#32)) (FloatOps.ofBits .f32 0x00000000#32)))
        (FloatOps.addf (FloatOps.addf ps (FloatOps.ofBits .f32 0x40000000#32)) (FloatOps.ofBits .f32 0x00000000#32))
        (FloatOps.addf
          (FloatOps.maximumf (FloatOps.addf ps (FloatOps.ofBits .f32 0x40000000#32)) (FloatOps.ofBits .f32 0x00000000#32))
          (FloatOps.hostUnary .log1p (FloatOps.hostUnary .exp (FloatOps.hostNegf
            (FloatOps.hostAbsf (FloatOps.subf (FloatOps.addf ps (FloatOps.ofBits .f32 0x40000000#32)) (FloatOps.ofBits .f32 0x00000000#32))))))))
      (FloatOps.ofBits .f32 0x358637BD#32))
    (FloatOps.ofBits .f32 0x46800000#32)

/-- The cell on the host. -/
def cellH (pm ps nz : Ideal .f32) : BitVec 32 :=
  IntOp.minsi 16383#32 (IntOp.maxsi 0#32
    (FloatOps.fptosi 32 (FloatOps.hostUnary .roundeven (FloatOps.addf (meanH pm) (FloatOps.mulf (spreadH ps) nz)))))

/-! ## The two spellings agree -/

/-- `1 / (1 + e^(-pm)) · (16384 − 1) = σ(pm) · 16383`: the logistic is that quotient by definition, and the
    scale is one real. -/
theorem meanH_eq (pm : Ideal .f32) : meanH pm = meanK pm := by
  unfold meanH meanK
  simp only [Ideal.subf_def, Ideal.ofBits_def]
  rw [span_minus_one]
  simp only [Ideal.logistic_def, Ideal.logistic, Ideal.hostDivf_def, Ideal.hostUnary_exp_def, Ideal.hostNegf_def,
    Ideal.negf_def, Ideal.addf_def, Ideal.mulf_def, word_one]

/-- The negation `0 − a` is `−a`, and the two guards are one comparison. -/
theorem spreadH_eq (ps : Ideal .f32) : spreadH ps = spreadK ps := by
  unfold spreadH spreadK
  simp only [Ideal.hostUnary_exp_def, Ideal.hostUnary_log1p_def, Ideal.hostNegf_def, Ideal.hostAbsf_def,
    Ideal.exp_def, Ideal.log1p_def, Ideal.negf_def, Ideal.subf_def, Ideal.ofBits_def, word_zero, zero_sub]
  rfl

/-- So the host's cell is the kernel's. -/
theorem cellH_eq (pm ps nz : Ideal .f32) : cellH pm ps nz = cellK pm ps nz := by
  unfold cellH cellK
  rw [meanH_eq, spreadH_eq]
  rfl

/-! ## The tables: a cell at every (row, slot), for coordinate `k` -/

/-- The index table of coordinate `k` (`0`: target rows, `1`: source columns) over the whole batch:
    entry (b, t) is the cell of `pmeans[t, k]`, `psigmas[t]`, `noise[b, t, k]`. -/
def table (k : Fin 2) (noise : (⟨3, ![512, 16384, 2]⟩ : Shape).Idx → Ideal .f32)
    (pmeans : (⟨2, ![16384, 2]⟩ : Shape).Idx → Ideal .f32) (psigmas : (⟨1, ![16384]⟩ : Shape).Idx → Ideal .f32) :
    (⟨2, ![512, 16384]⟩ : Shape).Idx → BitVec 32 :=
  fun j => cellK (pmeans (ValueIdx.ix2 (j 1) k)) (psigmas (ValueIdx.ix1 (j 1))) (noise (ValueIdx.ix3 (j 0) (j 1) k))

end Cert.IndexCell

end
-- ==== Proof.KernelCells.lean ====
/-
  What the kernel body stores, read at an index.

  At one grid point the body holds a block of 32 batch rows of the noise, [32, 16384, 2], and the whole parameter
  arrays pmeans [16384, 2] and psigmas [16384]. It computes the clipped sample array of the block — the scaled means
  and the scaled spreads reshaped to [1, 16384, 2] and [1, 16384, 1] and broadcast over the 32 rows — and stores its
  two slices along the last axis, reshaped to [32, 16384]: coordinate 0 into the rows' block, coordinate 1 into the
  columns' block.
  Read at (b, t, k), the broadcasts pick slot t (and coordinate k) of the parameters and every other operation is
  pointwise, so the entry is the cell of pmeans[t, k], psigmas[t] and the block's noise[b, t, k].
-/
import proofs.«137233_j39213051413051_1_alg».proof.Proof.Gen.KernelIdeal.Skeleton
import proofs.«137233_j39213051413051_1_alg».proof.Proof.Cell
import Idealize.ShloMosaic.Lib.Pipeline.Value
import Idealize.ShloMosaic.Lib.ValueIdx

noncomputable section

namespace Cert.KernelIdeal.Cells

open Cert.KernelIdeal Cert.KernelIdeal.Gen Idealize.ShloMosaic Idealize.ShloMosaic.ValueIdx

/-! ## The layout operations at an index -/

/-- A [16384, 2] array reshaped to [1, 16384, 2] and broadcast over 32 rows reads (t, k) at (b, t, k). -/
theorem bcast_pair {α : Type} (x : S16384x2.Idx → α) (b : Fin 32) (t : Fin 16384) (k : Fin 2) :
    broadcastTo S32x16384x2 (shapeCast S1x16384x2 x Facts₀.shapeCasts_S16384x2_S1x16384x2) Facts₀.broadcasts_S1x16384x2_S32x16384x2 (ix3 b t k)
      = x (ix2 t k) := by
  refine (broadcastTo_apply _ _ (ix3 b t k) (ix3 (0 : Fin 1) t k) (fun a => ?_)).trans ?_
  · match a with
    | ⟨0, _⟩ => rfl
    | ⟨1, _⟩ => rfl
    | ⟨2, _⟩ => rfl
  · refine shapeCast_apply _ _ _ (ix2 t k) ?_
    rw [Shape.rowMajor_val_two, Shape.rowMajor_val_three]
    show t.val * 2 + k.val = ((0 : Fin 1).val * 16384 + t.val) * 2 + k.val
    simp

/-- A [16384] array reshaped to [1, 16384, 1] and broadcast over 32 rows and both coordinates reads t at (b, t, k). -/
theorem bcast_slot {α : Type} (x : S16384.Idx → α) (b : Fin 32) (t : Fin 16384) (k : Fin 2) :
    broadcastTo S32x16384x2 (shapeCast S1x16384x1 x Facts₀.shapeCasts_S16384_S1x16384x1) Facts₀.broadcasts_S1x16384x1_S32x16384x2 (ix3 b t k)
      = x (ix1 t) := by
  refine (broadcastTo_apply _ _ (ix3 b t k) (ix3 (0 : Fin 1) t (0 : Fin 1)) (fun a => ?_)).trans ?_
  · match a with
    | ⟨0, _⟩ => rfl
    | ⟨1, _⟩ => rfl
    | ⟨2, _⟩ => rfl
  · refine shapeCast_apply _ _ _ (ix1 t) ?_
    rw [Shape.rowMajor_val_one, Shape.rowMajor_val_three]
    show t.val = ((0 : Fin 1).val * 16384 + t.val) * 1 + (0 : Fin 1).val
    simp

/-- The slice at coordinate k of a [32, 16384, 2] array, reshaped to [32, 16384], reads (b, t, k) at (b, t). -/
theorem slice_coord {α : Type} (x : S32x16384x2.Idx → α) (k : Fin 2) (h : S32x16384x2.Slices ![0, 0, k.val] S32x16384x1)
    (b : Fin 32) (t : Fin 16384) :
    shapeCast S32x16384 (extractStridedSlice S32x16384x1 ![0, 0, k.val] x h) Facts₀.shapeCasts_S32x16384x1_S32x16384 (ix2 b t)
      = x (ix3 b t k) := by
  refine (shapeCast_apply _ _ (ix2 b t) (ix3 b t (0 : Fin 1)) ?_).trans ?_
  · rw [Shape.rowMajor_val_two, Shape.rowMajor_val_three]
    show (b.val * 16384 + t.val) * 1 + (0 : Fin 1).val = b.val * 16384 + t.val
    simp
  · refine extractStridedSlice_apply _ _ _ _ (ix3 b t k) (fun a => ?_)
    match a with
    | ⟨0, _⟩ => show b.val = 0 + b.val; omega
    | ⟨1, _⟩ => show t.val = 0 + t.val; omega
    | ⟨2, _⟩ => show k.val = k.val + (0 : Fin 1).val; simp

/-! ## The payloads at an index -/

/-- The clipped sample array of the block at (b, t, k) is the cell of the parameters' slot t (coordinate k) and the
    block's noise there. -/
theorem clipped_apply (v0 : Vec Ideal S16384x2 .f32) (v4 : Vec Ideal S16384 .f32) (v25 : Vec Ideal S32x16384x2 .f32)
    (b : Fin 32) (t : Fin 16384) (k : Fin 2) :
    k0_pay2 (F := Ideal) v0 v4 v25 (ix3 b t k) = IndexCell.cellK (v0 (ix2 t k)) (v4 (ix1 t)) (v25 (ix3 b t k)) := by
  unfold k0_pay2 IndexCell.cellK IndexCell.meanK IndexCell.spreadK
  show IntOp.minsi _ (IntOp.maxsi _ (FloatOps.fptosi 32 (FloatOps.roundeven (FloatOps.addf
    (broadcastTo S32x16384x2 (shapeCast S1x16384x2 _ _) _ (ix3 b t k))
    (FloatOps.mulf (broadcastTo S32x16384x2 (shapeCast S1x16384x1 _ _) _ (ix3 b t k)) _))))) = _
  rw [bcast_pair, bcast_slot]
  rfl

/-- What is stored into the rows' block: coordinate 0 of the clipped samples. -/
theorem rows_payload_apply (v0 : Vec Ideal S16384x2 .f32) (v4 : Vec Ideal S16384 .f32) (v25 : Vec Ideal S32x16384x2 .f32)
    (b : Fin 32) (t : Fin 16384) :
    k0_pay3 (F := Ideal) v0 v4 v25 (ix2 b t) = k0_pay2 (F := Ideal) v0 v4 v25 (ix3 b t (0 : Fin 2)) := by
  unfold k0_pay3
  exact slice_coord (k0_pay2 (F := Ideal) v0 v4 v25) (0 : Fin 2) _ b t

/-- What is stored into the columns' block: coordinate 1 of the clipped samples. -/
theorem cols_payload_apply (v0 : Vec Ideal S16384x2 .f32) (v4 : Vec Ideal S16384 .f32) (v25 : Vec Ideal S32x16384x2 .f32)
    (b : Fin 32) (t : Fin 16384) :
    k0_pay1 (k0_pay4 (F := Ideal) v0 v4 v25) (ix2 b t) = k0_pay2 (F := Ideal) v0 v4 v25 (ix3 b t (1 : Fin 2)) := by
  unfold k0_pay1 k0_pay4
  exact slice_coord (k0_pay2 (F := Ideal) v0 v4 v25) (1 : Fin 2) _ b t

end Cert.KernelIdeal.Cells

end
-- ==== Proof.KernelTables.lean ====
/-
  From the kernel's blocks to its two result arrays.

  The grid has 16 points; point t stages rows 32·t … 32·t + 31 of the noise and the whole of pmeans and psigmas, and
  writes back rows 32·t … 32·t + 31 of each result array. So what point t writes back is block t of the table of its
  coordinate (every entry of the block is the cell of the right slot and the right noise entry), the 16 blocks cover
  the [512, 16384] array, and each result array ends holding its table.
-/
import proofs.«137233_j39213051413051_1_alg».proof.Proof.Gen.KernelIdeal.Frame
import proofs.«137233_j39213051413051_1_alg».proof.Proof.KernelCells
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tables

open Cert.KernelIdeal Cert.KernelIdeal.Gen Cert.KernelIdeal.Cells Idealize.ShloMosaic.ValueIdx

variable (m : (ℓ : Loc nD τ sig) → Buf (Elt Ideal) ℓ)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What the body leaves in the two output blocks, entry by entry -/

/-- The rows' block after the body: entry (b, t) is the cell at coordinate 0. -/
theorem rows_block (x0 : Vec Ideal S32x16384x2 .f32) (x1 : Vec Ideal S16384x2 .f32) (x2 : Vec Ideal S16384 .f32) (y : S32x16384.Idx) :
    out0_3 x0 x1 x2 y = IndexCell.cellK (x1 (ix2 (y 1) (0 : Fin 2))) (x2 (ix1 (y 1))) (x0 (ix3 (y 0) (y 1) (0 : Fin 2))) := by
  obtain ⟨b, s, rfl⟩ : ∃ (b : Fin 32) (s : Fin 16384), y = ix2 b s := ⟨y 0, y 1, eq_ix2 y⟩
  unfold out0_3
  rw [View.canon_unit_zero zeros2]
  simp only [View.ld_unit_zero (S := S16384x2) zeros2, View.ld_unit_zero (S := S16384) zeros1, View.ld_unit_zero (S := S32x16384x2) zeros3]
  rw [rows_payload_apply, clipped_apply]

/-- The columns' block after the body: entry (b, t) is the cell at coordinate 1. -/
theorem cols_block (x0 : Vec Ideal S32x16384x2 .f32) (x1 : Vec Ideal S16384x2 .f32) (x2 : Vec Ideal S16384 .f32) (y : S32x16384.Idx) :
    out0_4 x0 x1 x2 y = IndexCell.cellK (x1 (ix2 (y 1) (1 : Fin 2))) (x2 (ix1 (y 1))) (x0 (ix3 (y 0) (y 1) (1 : Fin 2))) := by
  obtain ⟨b, s, rfl⟩ : ∃ (b : Fin 32) (s : Fin 16384), y = ix2 b s := ⟨y 0, y 1, eq_ix2 y⟩
  unfold out0_4
  rw [View.canon_unit_zero zeros2]
  simp only [View.ld_unit_zero (S := S16384x2) zeros2, View.ld_unit_zero (S := S16384) zeros1, View.ld_unit_zero (S := S32x16384x2) zeros3]
  rw [cols_payload_apply, clipped_apply]

/-! ## The windows' blocks as parts of their arrays -/

/-- The block indices over the grid: the noise and both results move one block of 32 rows per point, the parameter
    arrays stay whole. -/
theorem block_indices : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The noise block at point t is rows 32·t … 32·t + 31 of the noise. -/
theorem noise_block_apply (c : Dev nD) (t : Fin cfg0.N) (x : S32x16384x2.Idx) (k : S512x16384x2.Idx)
    (hk0 : (k 0).val = 32 * t.val + (x 0).val) (hk1 : (k 1).val = (x 1).val) (hk2 : (k 2).val = (x 2).val) :
    (iblk m c 0 t : Vec Ideal S32x16384x2 .f32) x = (m ((c : Thread nD τ).loc main_arg1) : S512x16384x2.Idx → Ideal .f32) k := by
  obtain ⟨e0, e1, e2, -⟩ := block_indices t
  unfold iblk
  rw [View.read_apply]
  show V m c main_arg1 _ = m (c.tc.loc main_arg1) _
  unfold V
  congr 1
  funext a
  apply Fin.ext
  match a with
  | ⟨0, _⟩ => show win0_0.index t 0 * 32 + 1 * (x 0).val = (k 0).val; rw [e0, hk0]; omega
  | ⟨1, _⟩ => show win0_0.index t 1 * 16384 + 1 * (x 1).val = (k 1).val; rw [e1, hk1]; omega
  | ⟨2, _⟩ => show win0_0.index t 2 * 2 + 1 * (x 2).val = (k 2).val; rw [e2, hk2]; omega

/-- The pmeans block at every point is pmeans. -/
theorem pmeans_block_apply (c : Dev nD) (t : Fin cfg0.N) (x : S16384x2.Idx) :
    (iblk m c 1 t : Vec Ideal S16384x2 .f32) x = (m ((c : Thread nD τ).loc main_arg2) : S16384x2.Idx → Ideal .f32) x := by
  obtain ⟨-, -, -, e0, e1, -⟩ := block_indices t
  unfold iblk
  rw [View.read_apply]
  show V m c main_arg2 _ = m (c.tc.loc main_arg2) _
  unfold V
  congr 1
  funext a
  apply Fin.ext
  match a with
  | ⟨0, _⟩ => show win0_1.index t 0 * 16384 + 1 * (x 0).val = (x 0).val; rw [e0]; omega
  | ⟨1, _⟩ => show win0_1.index t 1 * 2 + 1 * (x 1).val = (x 1).val; rw [e1]; omega

/-- The psigmas block at every point is psigmas. -/
theorem psigmas_block_apply (c : Dev nD) (t : Fin cfg0.N) (x : S16384.Idx) :
    (iblk m c 2 t : Vec Ideal S16384 .f32) x = (m ((c : Thread nD τ).loc main_arg3) : S16384.Idx → Ideal .f32) x := by
  obtain ⟨-, -, -, -, -, e0, -⟩ := block_indices t
  unfold iblk
  rw [View.read_apply]
  show V m c main_arg3 _ = m (c.tc.loc main_arg3) _
  unfold V
  congr 1
  funext a
  apply Fin.ext
  match a with
  | ⟨0, _⟩ => show win0_2.index t 0 * 16384 + 1 * (x 0).val = (x 0).val; rw [e0]; omega

/-! ## The two tables, and what each point writes back -/

/-- The target-row table of the launch contents. -/
abbrev rowsTable (c : Dev nD) : Buf (Elt Ideal) ((c : Thread nD τ).loc main_v0_0) :=
  IndexCell.table 0 (m ((c : Thread nD τ).loc main_arg1)) (m ((c : Thread nD τ).loc main_arg2)) (m ((c : Thread nD τ).loc main_arg3))
/-- The source-column table of the launch contents. -/
abbrev colsTable (c : Dev nD) : Buf (Elt Ideal) ((c : Thread nD τ).loc main_v0_1) :=
  IndexCell.table 1 (m ((c : Thread nD τ).loc main_arg1)) (m ((c : Thread nD τ).loc main_arg2)) (m ((c : Thread nD τ).loc main_arg3))

/-- Point t writes back block t of the target-row table. -/
theorem flushed_rows (c : Dev nD) (t : Fin cfg0.N) :
    (dats m 0 c).flushed 3 t = ((cfg0.win 3).blk t).view.read (Elt Ideal) (rowsTable m c) := by
  show (cfg0.win 3).cut (grid0.coords t) ((dats m 0 c).after 3 t) = _
  rw [after0_3]
  obtain ⟨-, -, -, -, -, -, e0, e1, -⟩ := block_indices t
  funext j
  show out0_3 (iblk m c 0 t) (iblk m c 1 t) (iblk m c 2 t) j = IndexCell.table 0 _ _ _ (((cfg0.win 3).blk t).view.emb j)
  refine (rows_block (iblk m c 0 t) (iblk m c 1 t) (iblk m c 2 t) j).trans ?_
  unfold IndexCell.table
  have hj0 : (j 0).val < 32 := (j 0).isLt
  have hj1 : (j 1).val < 16384 := (j 1).isLt
  have h0 : ((((cfg0.win 3).blk t).view.emb j) 0).val = 32 * t.val + (j 0).val := by
    show win0_3.index t 0 * 32 + 1 * (j 0).val = _; rw [e0]; omega
  have h1 : ((((cfg0.win 3).blk t).view.emb j) 1).val = (j 1).val := by
    show win0_3.index t 1 * 16384 + 1 * (j 1).val = _; rw [e1]; omega
  rw [pmeans_block_apply m c t, psigmas_block_apply m c t,
    noise_block_apply m c t (ix3 (j 0) (j 1) (0 : Fin 2)) (ix3 ((((cfg0.win 3).blk t).view.emb j) 0) ((((cfg0.win 3).blk t).view.emb j) 1) (0 : Fin 2)) h0 h1 rfl]
  have hs : (((cfg0.win 3).blk t).view.emb j) 1 = j 1 := Fin.ext h1
  rw [hs]

/-- Point t writes back block t of the source-column table. -/
theorem flushed_cols (c : Dev nD) (t : Fin cfg0.N) :
    (dats m 0 c).flushed 4 t = ((cfg0.win 4).blk t).view.read (Elt Ideal) (colsTable m c) := by
  show (cfg0.win 4).cut (grid0.coords t) ((dats m 0 c).after 4 t) = _
  rw [after0_4]
  obtain ⟨-, -, -, -, -, -, -, -, e0, e1⟩ := block_indices t
  funext j
  show out0_4 (iblk m c 0 t) (iblk m c 1 t) (iblk m c 2 t) j = IndexCell.table 1 _ _ _ (((cfg0.win 4).blk t).view.emb j)
  refine (cols_block (iblk m c 0 t) (iblk m c 1 t) (iblk m c 2 t) j).trans ?_
  unfold IndexCell.table
  have hj0 : (j 0).val < 32 := (j 0).isLt
  have hj1 : (j 1).val < 16384 := (j 1).isLt
  have h0 : ((((cfg0.win 4).blk t).view.emb j) 0).val = 32 * t.val + (j 0).val := by
    show win0_4.index t 0 * 32 + 1 * (j 0).val = _; rw [e0]; omega
  have h1 : ((((cfg0.win 4).blk t).view.emb j) 1).val = (j 1).val := by
    show win0_4.index t 1 * 16384 + 1 * (j 1).val = _; rw [e1]; omega
  rw [pmeans_block_apply m c t, psigmas_block_apply m c t,
    noise_block_apply m c t (ix3 (j 0) (j 1) (1 : Fin 2)) (ix3 ((((cfg0.win 4).blk t).view.emb j) 0) ((((cfg0.win 4).blk t).view.emb j) 1) (1 : Fin 2)) h0 h1 rfl]
  have hs : (((cfg0.win 4).blk t).view.emb j) 1 = j 1 := Fin.ext h1
  rw [hs]

/-! ## The blocks cover the arrays -/

theorem mem_rows_block (t : Fin cfg0.N) (i : S512x16384.Idx) :
    i ∈ ((cfg0.win 3).blk t).view.set ↔ ∀ a : Fin 2, win0_3.index t a * S32x16384.size a ≤ (i a).val ∧ (i a).val < win0_3.index t a * S32x16384.size a + S32x16384.size a := by
  show i ∈ ((View.whole main_v0_0).slice (win0_3.rect t)).set ↔ _
  rw [View.set_slice_whole, Rect.mem_set_unit]
  exact Iff.rfl

theorem mem_cols_block (t : Fin cfg0.N) (i : S512x16384.Idx) :
    i ∈ ((cfg0.win 4).blk t).view.set ↔ ∀ a : Fin 2, win0_4.index t a * S32x16384.size a ≤ (i a).val ∧ (i a).val < win0_4.index t a * S32x16384.size a + S32x16384.size a := by
  show i ∈ ((View.whole main_v0_1).slice (win0_4.rect t)).set ↔ _
  rw [View.set_slice_whole, Rect.mem_set_unit]
  exact Iff.rfl

/-- Row r of the rows' array is in the block of point r / 32. -/
theorem cover_rows (i : S512x16384.Idx) :
    ∃ t : Fin cfg0.N, (cfg0.win 3).flush t = true ∧ i ∈ ((cfg0.win 3).blk t).view.set := by
  have hi0 : (i 0).val < 512 := (i 0).isLt
  have hi1 : (i 1).val < 16384 := (i 1).isLt
  have hN : cfg0.N = 16 := N_0
  let t : Fin cfg0.N := ⟨(i 0).val / 32, by rw [hN]; omega⟩
  obtain ⟨-, -, -, -, -, -, e0, e1, -⟩ := block_indices t
  refine ⟨t, flush0_3 t, ?_⟩
  rw [mem_rows_block]
  intro a
  match a with
  | ⟨0, _⟩ => show win0_3.index t 0 * 32 ≤ (i 0).val ∧ (i 0).val < win0_3.index t 0 * 32 + 32; rw [e0]; show (i 0).val / 32 * 32 ≤ (i 0).val ∧ (i 0).val < (i 0).val / 32 * 32 + 32; omega
  | ⟨1, _⟩ => show win0_3.index t 1 * 16384 ≤ (i 1).val ∧ (i 1).val < win0_3.index t 1 * 16384 + 16384; rw [e1]; omega

/-- Row r of the columns' array is in the block of point r / 32. -/
theorem cover_cols (i : S512x16384.Idx) :
    ∃ t : Fin cfg0.N, (cfg0.win 4).flush t = true ∧ i ∈ ((cfg0.win 4).blk t).view.set := by
  have hi0 : (i 0).val < 512 := (i 0).isLt
  have hi1 : (i 1).val < 16384 := (i 1).isLt
  have hN : cfg0.N = 16 := N_0
  let t : Fin cfg0.N := ⟨(i 0).val / 32, by rw [hN]; omega⟩
  obtain ⟨-, -, -, -, -, -, -, -, e0, e1⟩ := block_indices t
  refine ⟨t, flush0_4 t, ?_⟩
  rw [mem_cols_block]
  intro a
  match a with
  | ⟨0, _⟩ => show win0_4.index t 0 * 32 ≤ (i 0).val ∧ (i 0).val < win0_4.index t 0 * 32 + 32; rw [e0]; show (i 0).val / 32 * 32 ≤ (i 0).val ∧ (i 0).val < (i 0).val / 32 * 32 + 32; omega
  | ⟨1, _⟩ => show win0_4.index t 1 * 16384 ≤ (i 1).val ∧ (i 1).val < win0_4.index t 1 * 16384 + 16384; rw [e1]; omega

/-! ## The arrays after the region -/

/-- The rows' array ends holding the target-row table. -/
theorem final_rows (c : Dev nD) : (dats m 0 c).arrAt 3 cfg0.N = rowsTable m c :=
  (dats m 0 c).arrAt_eq_of_cover 3 (rowsTable m c) (fun t _ => flushed_rows m c t) cover_rows

/-- The columns' array ends holding the source-column table. -/
theorem final_cols (c : Dev nD) : (dats m 0 c).arrAt 4 cfg0.N = colsTable m c :=
  (dats m 0 c).arrAt_eq_of_cover 4 (colsTable m c) (fun t _ => flushed_cols m c t) cover_cols

end Cert.KernelIdeal.Tables

end
-- ==== Proof.Contract.lean ====
/-
  The sparse contraction both programs end with, as ONE function of (x, pvalues, rows, cols).

  After the index tables are known, kernel and reference run the same host operations: the values pvalues[t]
  broadcast over the batch, the gather x[b, cols[b, t]] (jnp's take_along_axis: negative indices wrapped, the result
  filled where the wrapped index is out of range), their product, and the scatter with addition of these updates into
  a zero [512, 16384] array at the positions (b, rows[b, t]). Nothing here is opened: the two programs' results are
  this function of their own rows and cols, and they agree as soon as the tables do.
  The function is spelt over the kernel program's shape and dimension records; the reference's records are the same
  literal data.
-/
import proofs.«137233_j39213051413051_1_alg».proof.Proof.Gen.KernelIdeal

noncomputable section

namespace Cert.Contract

open Cert.KernelIdeal Idealize.ShloMosaic

variable {F : FTy → Type} [FloatOps F]

/-- `take_along_axis(x, cols, axis = 1)` as the programs spell it: a negative index wrapped by the axis length, the
    gather along axis 1 within each batch row, and the out-of-range fill where the wrapped index leaves `[0, 16383]`. -/
def takeAlong (x : FVec F S512x16384 .f32) (cols : IVec S512x16384 32) : FVec F S512x16384 .f32 :=
  select
    (Host.reduce IntOp.andi
      (andi
        (cmpi .sge
          (shapeCast S512x16384x1 (select (cmpi .slt cols (broadcastInDim S512x16384 ![] Cert.KernelIdeal.Facts₀.bcast_S_S512x16384 (constantI S_ 32 0#32))) (addi cols (broadcastInDim S512x16384 ![] Cert.KernelIdeal.Facts₀.bcast_S_S512x16384 (constantI S_ 32 16384#32))) cols) Cert.KernelIdeal.Facts₀.shapeCasts_S512x16384_S512x16384x1)
          (broadcastInDim S512x16384x1 ![] Cert.KernelIdeal.Facts₀.bcast_S_S512x16384x1 (constantI S_ 32 0#32)))
        (cmpi .sle
          (shapeCast S512x16384x1 (select (cmpi .slt cols (broadcastInDim S512x16384 ![] Cert.KernelIdeal.Facts₀.bcast_S_S512x16384 (constantI S_ 32 0#32))) (addi cols (broadcastInDim S512x16384 ![] Cert.KernelIdeal.Facts₀.bcast_S_S512x16384 (constantI S_ 32 16384#32))) cols) Cert.KernelIdeal.Facts₀.shapeCasts_S512x16384_S512x16384x1)
          (broadcastInDim S512x16384x1 ![0, 1, 2] Cert.KernelIdeal.Facts₀.bcast_S1x1x1_S512x16384x1_0_1_2 (broadcastInDim S1x1x1 ![2] Cert.KernelIdeal.Facts₀.bcast_S1_S1x1x1_2 (constantI S1 32 16383#32)))))
      (constantI S_ 1 1#1) Cert.KernelIdeal.Facts₀.reducesTo_S512x16384x1_S512x16384_d2 Cert.KernelIdeal.Facts₀.h_S_)
    (Host.gather gather_S512x16384_S512x16384x1_S512x16384_n_1_0_0_1_2_11 x
      (shapeCast S512x16384x1 (select (cmpi .slt cols (broadcastInDim S512x16384 ![] Cert.KernelIdeal.Facts₀.bcast_S_S512x16384 (constantI S_ 32 0#32))) (addi cols (broadcastInDim S512x16384 ![] Cert.KernelIdeal.Facts₀.bcast_S_S512x16384 (constantI S_ 32 16384#32))) cols) Cert.KernelIdeal.Facts₀.shapeCasts_S512x16384_S512x16384x1))
    (broadcastInDim S512x16384 ![] Cert.KernelIdeal.Facts₀.bcast_S_S512x16384 (constant S_ .f32 0x7FC00000#32))

/-- The batch-row coordinate of every update: `iota` over the 512 rows (its negative-index wrap is spelt, and never
    taken), as a [512, 16384, 1] array. -/
def batchCoord : IVec S512x16384x1 32 :=
  broadcastInDim S512x16384x1 ![0, 1] Cert.KernelIdeal.Facts₀.bcast_S512x16384_S512x16384x1_0_1
    (broadcastInDim S512x16384 ![0, 1] Cert.KernelIdeal.Facts₀.bcast_S512x1_S512x16384_0_1
      (select
        (cmpi .slt (broadcastInDim S512x1 ![0] Cert.KernelIdeal.Facts₀.bcast_S512_S512x1_0 (iotaInDim S512 32 0)) (broadcastInDim S512x1 ![] Cert.KernelIdeal.Facts₀.bcast_S_S512x1 (constantI S_ 32 0#32)))
        (addi (broadcastInDim S512x1 ![0] Cert.KernelIdeal.Facts₀.bcast_S512_S512x1_0 (iotaInDim S512 32 0)) (broadcastInDim S512x1 ![] Cert.KernelIdeal.Facts₀.bcast_S_S512x1 (constantI S_ 32 512#32)))
        (broadcastInDim S512x1 ![0] Cert.KernelIdeal.Facts₀.bcast_S512_S512x1_0 (iotaInDim S512 32 0))))

/-- The sparse contraction `y[b, rows[b, t]] += pvalues[t] · x[b, cols[b, t]]` from a zero array: the updates
    `pvalues ⊙ take_along_axis(x, cols)` scattered with addition at the index pairs (batch row, wrapped target row). -/
def contract (x : FVec F S512x16384 .f32) (pvalues : FVec F S16384 .f32) (rows cols : IVec S512x16384 32) : FVec F S512x16384 .f32 :=
  Host.scatterAdd scatter_S512x16384_S512x16384x2_S512x16384_n_01_01_2
    (broadcastInDim S512x16384 ![] Cert.KernelIdeal.Facts₀.bcast_S_S512x16384 (constant S_ .f32 0x00000000#32))
    (concatenate S512x16384x2 2
      [⟨S512x16384x1, batchCoord⟩,
       ⟨S512x16384x1, broadcastInDim S512x16384x1 ![0, 1] Cert.KernelIdeal.Facts₀.bcast_S512x16384_S512x16384x1_0_1
          (select (cmpi .slt rows (broadcastInDim S512x16384 ![] Cert.KernelIdeal.Facts₀.bcast_S_S512x16384 (constantI S_ 32 0#32)))
            (addi rows (broadcastInDim S512x16384 ![] Cert.KernelIdeal.Facts₀.bcast_S_S512x16384 (constantI S_ 32 16384#32))) rows)⟩]
      Cert.KernelIdeal.Facts₀.concatenates_S512x16384x1_S512x16384x1_S512x16384x2_d2)
    (mulf (broadcastInDim S512x16384 ![0, 1] Cert.KernelIdeal.Facts₀.bcast_S1x16384_S512x16384_0_1 (broadcastInDim S1x16384 ![1] Cert.KernelIdeal.Facts₀.bcast_S16384_S1x16384_1 pvalues))
      (takeAlong x cols))

end Cert.Contract

end
-- ==== Proof.KernelResult.lean ====
/-
  The kernel program's result: the contraction of x and pvalues along its two index tables.

  After the region the host lines read x, pvalues and the region's two result arrays, and nothing else of the memory:
  whatever the memory after the region holds, the last line's buffer is the contraction of those four buffers. The
  region leaves its two arrays at the tables (the blocks' module), and x and pvalues as launched.
-/
import proofs.«137233_j39213051413051_1_alg».proof.Proof.Gen.KernelIdeal.Frame
import proofs.«137233_j39213051413051_1_alg».proof.Proof.KernelTables
import proofs.«137233_j39213051413051_1_alg».proof.Proof.Contract
import Idealize.ShloMosaic.Lib.StableHlo.Run

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.Pipeline (Dat)

section AnyInstance
variable {F : FTy → Type} [FloatOps F]

set_option maxHeartbeats 8000000 in
/-- From any memory, the host lines after the region leave in the result buffer the contraction of the four buffers
    they read. The lines of the gather's helper function carry transports along equalities of buffer types that hold
    by computation; they are removed from the operations first, so that the composed term is the plain one. -/
theorem tail_of_valuation (W : Valuation τ sig (Elt F)) :
    StableHlo.after ([hostOps1, hostOps1_1, hostOps1_2] : List (List (HloOp τ sig (Elt F)))).flatten W (Proc.devRef .tc main_v22)
      = Cert.Contract.contract (W (Proc.devRef .tc main_arg0)) (W (Proc.devRef .tc main_arg4)) (W (Proc.devRef .tc main_v0_0)) (W (Proc.devRef .tc main_v0_1)) := by
  simp only [hostOps1, hostOps1_1, hostOps1_2, List.flatten_cons, List.flatten_nil, List.append_nil, List.cons_append, List.nil_append,
    TRef.nullary, TRef.unary, TRef.binary, TRef.ternary, TRef.reshape, TRef.of, TRef.toBuf, TRef.ofBuf, cast_eq]
  after_results_simp <;> rfl

variable (m : (ℓ : Loc nD τ sig) → Buf (Elt F) ℓ)

/-- The result buffer after the whole program: the contraction along the region's two arrays. -/
theorem result_of_arrays (c : Dev nD) :
    Pipeline.afterTail₀ cfgs (dats m) 0 (V0 m) [hostOps1, hostOps1_1, hostOps1_2] c main_v22
      = Cert.Contract.contract (m ((c : Thread nD τ).loc main_arg0)) (m ((c : Thread nD τ).loc main_arg4))
          ((dats m 0 c).arrAt 3 cfg0.N) ((dats m 0 c).arrAt 4 cfg0.N) := by
  have hrows : Pipeline.withArrays (cfgs 0).spec c (V0 m c) (fun w => (dats m 0 c).arrAt w (cfgs 0).N) (Proc.devRef .tc main_v0_0)
      = (dats m 0 c).arrAt 3 cfg0.N :=
    Pipeline.withArrays_arr spec0 launch0.win.arr_inj c (V0 m c) _ 3
  have hcols : Pipeline.withArrays (cfgs 0).spec c (V0 m c) (fun w => (dats m 0 c).arrAt w (cfgs 0).N) (Proc.devRef .tc main_v0_1)
      = (dats m 0 c).arrAt 4 cfg0.N :=
    Pipeline.withArrays_arr spec0 launch0.win.arr_inj c (V0 m c) _ 4
  have hx : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have hpv : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  refine (tail_of_valuation _).trans ?_
  rw [hrows, hcols, hx, hpv]

end AnyInstance

variable (m : (ℓ : Loc nD τ sig) → Buf (Elt Ideal) ℓ) (ρ : Dev nD → PrngReg)

/-- The kernel program's result on the extended reals: the contraction of x and pvalues along the two tables. -/
abbrev result (c : Dev nD) : Buf (Elt Ideal) ((c : Thread nD τ).loc main_v22) :=
  Cert.Contract.contract (F := Ideal) (m ((c : Thread nD τ).loc main_arg0)) (m ((c : Thread nD τ).loc main_arg4))
    (Cert.KernelIdeal.Tables.rowsTable m c) (Cert.KernelIdeal.Tables.colsTable m c)

/-- The run, read: every weakly fair execution ends with the result buffer at `result` and the arguments unchanged. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v22 (Pipeline.mem_restRefs_of main_v22 (by decide) (by decide))).trans
        ((result_of_arrays m c).trans (by rw [Cert.KernelIdeal.Tables.final_rows, Cert.KernelIdeal.Tables.final_cols])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefStages.lean ====
/-
  The reference's two index tables, read at an index.

  The reference computes the samples on the whole batch at once: the scaled means σ(pmeans)·(16384 − 1) as a
  [1, 16384, 2] array, the scaled spreads (softplus(psigmas + 2) + ε)·16384 as a [1, 16384, 1] array, both broadcast
  over the batch against the noise; it rounds, converts and clips the [512, 16384, 2] array of samples, and takes its
  two slices along the last axis as the target rows and the source columns.
  Entry (b, t, k) of the clipped array depends only on pmeans[t, k], psigmas[t] and noise[b, t, k]: it is the host's
  spelling of the cell, which is the kernel's (the scalar module). So each slice is the table of its coordinate.
-/
import proofs.«137233_j39213051413051_1_alg».proof.Proof.RefRead
import proofs.«137233_j39213051413051_1_alg».proof.Proof.Cell
import Idealize.ShloMosaic.Lib.ValueIdx

noncomputable section

namespace Cert.ReferenceIdeal.Stages

open Cert.ReferenceIdeal Cert.ReferenceIdeal.ReadPatched Idealize.ShloMosaic Idealize.ShloMosaic.ValueIdx

/-- The clipped sample array at (b, t, k) is the host's cell of `pmeans[t, k]`, `psigmas[t]`, `noise[b, t, k]`:
    every broadcast reads its operand at the slot `t` (and coordinate `k`), every other operation is pointwise. -/
theorem clipped_apply (x1 : (⟨S512x16384x2, .f32⟩ : BufTy).Contents (Elt Ideal)) (x2 : (⟨S16384x2, .f32⟩ : BufTy).Contents (Elt Ideal))
    (x3 : (⟨S16384, .f32⟩ : BufTy).Contents (Elt Ideal)) (b : Fin 512) (t : Fin 16384) (k : Fin 2) :
    val_main_v24 (F := Ideal) x1 x2 x3 (ix3 b t k) = IndexCell.cellH (x2 (ix2 t k)) (x3 (ix1 t)) (x1 (ix3 b t k)) := by
  have e2 : idx_main_v6 (idx_main_v20 (ix3 b t k)) = ix2 t k :=
    funext fun a => Fin.ext (by match a with | ⟨0, _⟩ => rfl | ⟨1, _⟩ => rfl)
  have e3 : idx_main_v15 (idx_main_v18 (ix3 b t k)) = ix1 t :=
    funext fun a => Fin.ext (by match a with | ⟨0, _⟩ => rfl)
  simp only [val_main_v24_apply, val_main_call2_v4_apply, val_main_call2_v3_apply, val_main_c_6_apply,
    val_main_call2_v2_apply, val_main_call2_v1_apply, val_main_call2_v0_apply, val_main_c_apply,
    val_main_v23_apply, val_main_v22_apply, val_main_v21_apply,
    val_main_v20_apply, val_main_v9_apply, val_main_v6_apply, val_main_v5_apply, val_main_v4_apply, val_main_cst_0_apply,
    val_main_v3_apply, val_main_v2_apply, val_main_cst_apply, val_main_v1_apply, val_main_v0_apply,
    val_main_v8_apply, val_main_v7_apply, val_main_cst_1_apply, val_main_cst_2_apply,
    val_main_v19_apply, val_main_v18_apply, val_main_v17_apply, val_main_v16_apply, val_main_cst_5_apply,
    val_main_v15_apply, val_main_v14_apply, val_main_v13_apply, val_main_cst_4_apply, val_main_v12_apply,
    val_main_call0_v4_apply, val_main_call0_v3_apply, val_main_call0_v2_apply, val_main_call0_cst_apply,
    val_main_v11_apply, val_main_v10_apply, val_main_cst_3_apply, val_main_call0_v6_apply, val_main_call0_v5_apply,
    val_main_call0_v11_apply, val_main_call0_v1_apply, val_main_call0_v0_apply, val_main_call0_v10_apply,
    val_main_call0_v9_apply, val_main_call0_v8_apply, val_main_call0_v7_apply, e2, e3]
  rfl

/-- The target rows: the slice at coordinate 0 of the clipped array, reshaped to [512, 16384]. -/
theorem rows_eq_table (x1 : (⟨S512x16384x2, .f32⟩ : BufTy).Contents (Elt Ideal)) (x2 : (⟨S16384x2, .f32⟩ : BufTy).Contents (Elt Ideal))
    (x3 : (⟨S16384, .f32⟩ : BufTy).Contents (Elt Ideal)) :
    val_main_v26 (F := Ideal) x1 x2 x3 = IndexCell.table 0 x1 x2 x3 := by
  funext i
  have h0 : (i 0).val < 512 := (i 0).isLt
  have h1 : (i 1).val < 16384 := (i 1).isLt
  have e : idx_main_v25 (idx_main_v26 i) = ix3 (⟨(i 0).val, h0⟩ : Fin 512) (⟨(i 1).val, h1⟩ : Fin 16384) (0 : Fin 2) :=
    funext fun a => Fin.ext (by
      match a with
      | ⟨0, _⟩ => show ((i 0).val * 16384 + (i 1).val) / 16384 = (i 0).val; omega
      | ⟨1, _⟩ => show ((i 0).val * 16384 + (i 1).val) / 1 % 16384 = (i 1).val; omega
      | ⟨2, _⟩ => rfl)
  rw [val_main_v26_apply, val_main_v25_apply, e,
    clipped_apply x1 x2 x3 (⟨(i 0).val, h0⟩ : Fin 512) (⟨(i 1).val, h1⟩ : Fin 16384) (0 : Fin 2), IndexCell.cellH_eq]
  rfl

/-- The source columns: the slice at coordinate 1. -/
theorem cols_eq_table (x1 : (⟨S512x16384x2, .f32⟩ : BufTy).Contents (Elt Ideal)) (x2 : (⟨S16384x2, .f32⟩ : BufTy).Contents (Elt Ideal))
    (x3 : (⟨S16384, .f32⟩ : BufTy).Contents (Elt Ideal)) :
    val_main_v28 (F := Ideal) x1 x2 x3 = IndexCell.table 1 x1 x2 x3 := by
  funext i
  have h0 : (i 0).val < 512 := (i 0).isLt
  have h1 : (i 1).val < 16384 := (i 1).isLt
  have e : idx_main_v27 (idx_main_v28 i) = ix3 (⟨(i 0).val, h0⟩ : Fin 512) (⟨(i 1).val, h1⟩ : Fin 16384) (1 : Fin 2) :=
    funext fun a => Fin.ext (by
      match a with
      | ⟨0, _⟩ => show ((i 0).val * 16384 + (i 1).val) / 16384 = (i 0).val; omega
      | ⟨1, _⟩ => show ((i 0).val * 16384 + (i 1).val) / 1 % 16384 = (i 1).val; omega
      | ⟨2, _⟩ => rfl)
  rw [val_main_v28_apply, val_main_v27_apply, e,
    clipped_apply x1 x2 x3 (⟨(i 0).val, h0⟩ : Fin 512) (⟨(i 1).val, h1⟩ : Fin 16384) (1 : Fin 2), IndexCell.cellH_eq]
  rfl

end Cert.ReferenceIdeal.Stages

end
-- ==== Proof.RefResult.lean ====
/-
  The reference program's result: the same contraction of x and pvalues, along the reference's own two index arrays —
  which are the tables.
-/
import proofs.«137233_j39213051413051_1_alg».proof.Proof.RefRead
import proofs.«137233_j39213051413051_1_alg».proof.Proof.RefStages
import proofs.«137233_j39213051413051_1_alg».proof.Proof.Contract

noncomputable section

namespace Cert.ReferenceIdeal.Result

open Cert.ReferenceIdeal Cert.ReferenceIdeal.ReadPatched Idealize.ShloMosaic

set_option maxRecDepth 131072 in
/-- The last stage of the reference is the contraction along its rows and cols stages: the lines between are the
    contraction's own operations, in another order. -/
theorem last_stage_eq {F : FTy → Type} [FloatOps F] (x0 : (⟨S512x16384, .f32⟩ : BufTy).Contents (Elt F)) (x1 : (⟨S512x16384x2, .f32⟩ : BufTy).Contents (Elt F))
    (x2 : (⟨S16384x2, .f32⟩ : BufTy).Contents (Elt F)) (x3 x4 : (⟨S16384, .f32⟩ : BufTy).Contents (Elt F)) :
    val_main_v50 (F := F) x0 x1 x2 x3 x4
      = Cert.Contract.contract (F := F) x0 x4 (val_main_v26 (F := F) x1 x2 x3) (val_main_v28 (F := F) x1 x2 x3) := rfl

/-- On the extended reals the reference's result is the contraction along the two tables. -/
theorem result_eq (x0 : (⟨S512x16384, .f32⟩ : BufTy).Contents (Elt Ideal)) (x1 : (⟨S512x16384x2, .f32⟩ : BufTy).Contents (Elt Ideal))
    (x2 : (⟨S16384x2, .f32⟩ : BufTy).Contents (Elt Ideal)) (x3 x4 : (⟨S16384, .f32⟩ : BufTy).Contents (Elt Ideal)) :
    val_main_v50 (F := Ideal) x0 x1 x2 x3 x4
      = Cert.Contract.contract (F := Ideal) x0 x4 (IndexCell.table 0 x1 x2 x3) (IndexCell.table 1 x1 x2 x3) := by
  rw [last_stage_eq, Cert.ReferenceIdeal.Stages.rows_eq_table, Cert.ReferenceIdeal.Stages.cols_eq_table]

end Cert.ReferenceIdeal.Result

end
-- ==== Proof.lean ====
/-
  The certificate's claims.

  Kernel and reference turn (noise, pmeans, psigmas) into two [512, 16384] tables of integer indices — entry (b, t) of
  the table of coordinate k is the sample σ(pmeans[t, k])·16383 + (softplus(psigmas[t] + 2) + ε)·16384·noise[b, t, k],
  rounded to even, converted and clipped to [0, 16383] — and then contract x and pvalues along them:
  y[b, rows[b, t]] += pvalues[t]·x[b, cols[b, t]].
  The kernel computes the tables in one pipelined region, 32 batch rows per grid point; the reference on the host.
  On the extended reals the two spellings of a cell are one function (the logistic is its quotient, 16384 − 1 is 16383,
  0 − a is −a, the two NaN guards are one comparison), so the tables agree, and the contraction after them is the
  same function on both sides. No finiteness of the inputs is used.
  The three frames: the kernel's two are the generated class-A frames; the reference's is its run with the result
  dropped. The idealization rewrote nothing, so `preserves` is trivial.
-/
import proofs.«137233_j39213051413051_1_alg».proof.Defs
import proofs.«137233_j39213051413051_1_alg».proof.Proof.Gen.Kernel
import proofs.«137233_j39213051413051_1_alg».proof.Proof.Gen.Kernel.Skeleton
import proofs.«137233_j39213051413051_1_alg».proof.Proof.Gen.Kernel.Launch
import proofs.«137233_j39213051413051_1_alg».proof.Proof.Gen.Kernel.Points
import proofs.«137233_j39213051413051_1_alg».proof.Proof.Gen.Kernel.Frame
import proofs.«137233_j39213051413051_1_alg».proof.Proof.Gen.KernelIdeal
import proofs.«137233_j39213051413051_1_alg».proof.Proof.Gen.KernelIdeal.Skeleton
import proofs.«137233_j39213051413051_1_alg».proof.Proof.Gen.KernelIdeal.Launch
import proofs.«137233_j39213051413051_1_alg».proof.Proof.Gen.KernelIdeal.Points
import proofs.«137233_j39213051413051_1_alg».proof.Proof.Gen.KernelIdeal.Frame
import proofs.«137233_j39213051413051_1_alg».proof.Proof.Gen.ReferenceIdeal
import proofs.«137233_j39213051413051_1_alg».proof.Proof.RefRun
import proofs.«137233_j39213051413051_1_alg».proof.Proof.RefRead
import proofs.«137233_j39213051413051_1_alg».proof.Proof.Gen.Pre_finite_inputs
import proofs.«137233_j39213051413051_1_alg».proof.Proof.KernelResult
import proofs.«137233_j39213051413051_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.RunPatched.run (F := Ideal) m ρ)

/-- From memories that agree on the five arguments both programs end with the contraction of x and pvalues along the
    two tables of (noise, pmeans, psigmas): the kernel by its region's blocks and the host lines after it, the
    reference by its stages. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.RunPatched.run (F := Ideal) m' ρ')
  rw [Cert.ReferenceIdeal.ReadPatched.val_main_v50_eq, Cert.ReferenceIdeal.Result.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
